-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S2048x1 .f32) (main_arg12 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1 .f32 := Host.absf main_arg11
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S128x2048 .f32) (main_arg6 : FVec F S2048x2048 .f32) (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x128 .f32) (main_arg1 : FVec F S32768x2048 .f32) (main_arg2 : FVec F S128x2048 .f32) (main_arg3 : FVec F S2048x2048 .f32) (main_arg4 : FVec F S2048 .f32) (main_arg5 : FVec F S128x2048 .f32) (main_arg6 : FVec F S2048x2048 .f32) (main_arg7 : FVec F S2048 .f32) (main_arg8 : FVec F S128x2048 .f32) (main_arg9 : FVec F S2048x2048 .f32) (main_arg10 : FVec F S2048 .f32) (main_arg11 : FVec F S2048x1 .f32) (main_arg12 : FVec F S1 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1x2048 : Shape := ⟨2, ![1, 2048]⟩
abbrev S1x1 : Shape := ⟨2, ![1, 1]⟩
abbrev S32768x1 : Shape := ⟨2, ![32768, 1]⟩
abbrev S128x128 : Shape := ⟨2, ![128, 128]⟩
abbrev S128x1 : Shape := ⟨2, ![128, 1]⟩

abbrev nBuf : Space → Nat
  | .hbm => 26
  | .vmem => 17
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S128x2048, .f32⟩
  | .hbm, ⟨3, _⟩ => ⟨S2048x2048, .f32⟩
  | .hbm, ⟨4, _⟩ => ⟨S2048, .f32⟩
  | .hbm, ⟨5, _⟩ => ⟨S128x2048, .f32⟩
  | .hbm, ⟨6, _⟩ => ⟨S2048x2048, .f32⟩
  | .hbm, ⟨7, _⟩ => ⟨S2048, .f32⟩
  | .hbm, ⟨8, _⟩ => ⟨S128x2048, .f32⟩
  | .hbm, ⟨9, _⟩ => ⟨S2048x2048, .f32⟩
  | .hbm, ⟨10, _⟩ => ⟨S2048, .f32⟩
  | .hbm, ⟨11, _⟩ => ⟨S2048x1, .f32⟩
  | .hbm, ⟨12, _⟩ => ⟨S1, .f32⟩
  | .hbm, ⟨13, _⟩ => ⟨S32768x128, .bf16⟩
  | .hbm, ⟨14, _⟩ => ⟨S128x2048, .bf16⟩
  | .hbm, ⟨15, _⟩ => ⟨S2048x2048, .bf16⟩
  | .hbm, ⟨16, _⟩ => ⟨S128x2048, .bf16⟩
  | .hbm, ⟨17, _⟩ => ⟨S2048x2048, .bf16⟩
  | .hbm, ⟨18, _⟩ => ⟨S128x2048, .bf16⟩
  | .hbm, ⟨19, _⟩ => ⟨S2048x2048, .bf16⟩
  | .hbm, ⟨20, _⟩ => ⟨S2048x1, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x1, .f32⟩
  | .hbm, ⟨25, _⟩ => ⟨S32768x1, .f32⟩
  | .local _ .vmem, ⟨0, _⟩ => ⟨S128x128, .bf16⟩
  | .local _ .vmem, ⟨1, _⟩ => ⟨S128x128, .bf16⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S2048x2048, .bf16⟩
  | .local _ .vmem, ⟨6, _⟩ => ⟨S1x2048, .f32⟩
  | .local _ .vmem, ⟨7, _⟩ => ⟨S128x2048, .bf16⟩
  | .local _ .vmem, ⟨8, _⟩ => ⟨S2048x2048, .bf16⟩
  | .local _ .vmem, ⟨9, _⟩ => ⟨S1x2048, .f32⟩
  | .local _ .vmem, ⟨10, _⟩ => ⟨S128x2048, .bf16⟩
  | .local _ .vmem, ⟨11, _⟩ => ⟨S2048x2048, .bf16⟩
  | .local _ .vmem, ⟨12, _⟩ => ⟨S1x2048, .f32⟩
  | .local _ .vmem, ⟨13, _⟩ => ⟨S2048x1, .bf16⟩
  | .local _ .vmem, ⟨14, _⟩ => ⟨S1x1, .f32⟩
  | .local _ .vmem, ⟨15, _⟩ => ⟨S128x1, .f32⟩
  | .local _ .vmem, ⟨16, _⟩ => ⟨S128x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  shapeCasts_S2048_S1x2048 : S2048.ShapeCasts S1x2048
  shapeCasts_S1_S1x1 : S1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S128x128_S128x2048_S128x2048_1_0_0_1_n_n_wf : DotDims.WF S128x128 S128x2048 S128x2048 [1] [0] [0] [1] [] []
  dot_S128x2048_S2048x2048_S128x2048_1_0_0_1_n_n_wf : DotDims.WF S128x2048 S2048x2048 S128x2048 [1] [0] [0] [1] [] []
  dot_S128x2048_S2048x1_S128x1_1_0_0_1_n_n_wf : DotDims.WF S128x2048 S2048x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S32768x128.size a
  hwx0_0 : ∀ i : grid0.Coords, EltTy.bits .bf16 = 32 ∨ (Rect.block (s := S32768x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S32768x2048.size a
  hwx0_1 : ∀ i : grid0.Coords, EltTy.bits .f32 = 32 ∨ (Rect.block (s := S32768x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x2048.size a
  hwx0_5 : ∀ i : grid0.Coords, EltTy.bits .bf16 = 32 ∨ (Rect.block (s := S128x2048) S128x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S128x2048.size a
  hwx0_8 : ∀ i : grid0.Coords, EltTy.bits .bf16 = 32 ∨ (Rect.block (s := S128x2048) S128x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S2048x1.size a
  hwx0_11 : ∀ i : grid0.Coords, EltTy.bits .bf16 = 32 ∨ (Rect.block (s := S2048x1) S2048x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S32768x1.size a
  hwx0_13 : ∀ i : grid0.Coords, EltTy.bits .f32 = 32 ∨ (Rect.block (s := S32768x1) S128x1.size (cc0_transform_13 i) (hinb0_13 i)).WholeWords (EltTy.packing .f32)

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1_S128x1_1_0_0_1_n_n : DotDims S128x2048 S2048x1 S128x1 where
  lhsContracting := [1]
  rhsContracting := [0]
  lhsNonContracting := [0]
  rhsNonContracting := [1]
  lhsBatch := []
  rhsBatch := []
  wf := dot_S128x2048_S2048x1_S128x1_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S2048x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S128x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x2048 : Shape := ⟨2, ![32768, 2048]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1x2048 : Shape := ⟨2, ![1, 2048]⟩
abbrev S_ : Shape := ⟨0, ![]⟩
abbrev S32768x1 : Shape := ⟨2, ![32768, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S128x2048, .f32⟩
  | .hbm, ⟨3, _⟩ => ⟨S2048x2048, .f32⟩
  | .hbm, ⟨4, _⟩ => ⟨S2048, .f32⟩
  | .hbm, ⟨5, _⟩ => ⟨S128x2048, .f32⟩
  | .hbm, ⟨6, _⟩ => ⟨S2048x2048, .f32⟩
  | .hbm, ⟨7, _⟩ => ⟨S2048, .f32⟩
  | .hbm, ⟨8, _⟩ => ⟨S128x2048, .f32⟩
  | .hbm, ⟨9, _⟩ => ⟨S2048x2048, .f32⟩
  | .hbm, ⟨10, _⟩ => ⟨S2048, .f32⟩
  | .hbm, ⟨11, _⟩ => ⟨S2048x1, .f32⟩
  | .hbm, ⟨12, _⟩ => ⟨S1, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S1x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S_, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x1, .f32⟩
  | .hbm, ⟨56, _⟩ => ⟨S1x1, .f32⟩
  | .hbm, ⟨57, _⟩ => ⟨S32768x1, .f32⟩
  | .hbm, ⟨58, _⟩ => ⟨S32768x1, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x128_S128x2048_S32768x2048_1_0_0_1_n_n_wf : DotDims.WF S32768x128 S128x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x1_S32768x1_1_0_0_1_n_n_wf : DotDims.WF S32768x2048 S2048x1 S32768x1 [1] [0] [0] [1] [] []

variable [Facts₀]

def dot_S32768x128_S128x2048_S32768x2048_1_0_0_1_n_n : DotDims S32768x128 S128x2048 S32768x2048 where
  lhsContracting := [1]
  rhsContracting := [0]
  lhsNonContracting := [0]
  rhsNonContracting := [1]
  lhsBatch := []
  rhsBatch := []
  wf := dot_S32768x128_S128x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.GruStep.lean ====
/-
  One step of a gated recurrent unit, read one path at a time.

  A path carries an input row x (D numbers) and a state row h (Hd numbers). Each of the three gates first forms, at
  hidden unit j, the number  ∑ k, x k · Wx k j + ∑ k, h k · Wh k j + b j. The update gate Z and the reset gate R
  squash theirs with the logistic function 1 / (1 + e^(-v)); the candidate state T feeds the state row R · h (entry by
  entry) into its own sum and squashes with tanh. The new state is Z · h + (1 - Z) · T and the path's output is its
  product with the column Wq plus bq. Every operation is read on the extended reals, where a change of float format is
  the identity; no law of arithmetic is used, only that both programs spell this same tree of operations, so nothing
  here needs the inputs to be finite. A matrix product of any number of rows, read at row r, sees only row r of its
  left operand, so a tile of rows and the whole batch read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import Idealize.ShloMosaic.PureOps.IdealRules
import proofs.«102342_j62551903699450_1_alg».proof.Proof.LibDense

noncomputable section

namespace Cert.GruStep

open Idealize.ShloMosaic Idealize.ShloMosaic.ValueIdx Cert.LibDense

variable {D Hd : ℕ}

/-! ## The step as a function of one path's rows -/

/-- The number the f32 word of 1.0 denotes. -/
def one : EReal := Ideal.ofBits .f32 0x3F800000#32

/-- It is the extended real 1. -/
theorem one_eq : one = 1 := IdealRules.sign_bit.ideal_onePat .f32

/-- What a gate squashes, at hidden unit j: the input row against column j of Wx, the state row against column j of
    Wh, and the bias. -/
def pre (x : Fin D → EReal) (h : Fin Hd → EReal) (Wx : Fin D → Fin Hd → EReal) (Wh : Fin Hd → Fin Hd → EReal)
    (b : Fin Hd → EReal) (j : Fin Hd) : EReal :=
  (∑ k : Fin D, x k * Wx k j + ∑ k : Fin Hd, h k * Wh k j) + b j

/-- The path's output after one step: the new state Z · h + (1 - Z) · T against the output column, plus its bias. -/
def step (x : Fin D → EReal) (h : Fin Hd → EReal)
    (Wxz : Fin D → Fin Hd → EReal) (Whz : Fin Hd → Fin Hd → EReal) (bz : Fin Hd → EReal)
    (Wxr : Fin D → Fin Hd → EReal) (Whr : Fin Hd → Fin Hd → EReal) (br : Fin Hd → EReal)
    (Wxh : Fin D → Fin Hd → EReal) (Whh : Fin Hd → Fin Hd → EReal) (bh : Fin Hd → EReal)
    (Wq : Fin Hd → EReal) (bq : EReal) : EReal :=
  (∑ k : Fin Hd,
      (Ideal.logistic (pre x h Wxz Whz bz k) * h k
        + (one - Ideal.logistic (pre x h Wxz Whz bz k))
          * Ideal.tanh (pre x (fun l => Ideal.logistic (pre x h Wxr Whr br l) * h l) Wxh Whh bh k)) * Wq k)
    + bq

/-! ## The step as a kernel spells it on a tile of M rows -/

section Kernel

variable {M : ℕ}

/-- A gate's sum as a kernel writes it: two products into zero accumulators, added, plus a one-row bias laid along
    every row. -/
def kPre {φx φh φ₁ φ₂ : FTy} (d1 : DotDims ⟨2, ![M, D]⟩ ⟨2, ![D, Hd]⟩ ⟨2, ![M, Hd]⟩)
    (d2 : DotDims ⟨2, ![M, Hd]⟩ ⟨2, ![Hd, Hd]⟩ ⟨2, ![M, Hd]⟩)
    (x : FVec Ideal ⟨2, ![M, D]⟩ φx) (h : FVec Ideal ⟨2, ![M, Hd]⟩ φh)
    (Wx : FVec Ideal ⟨2, ![D, Hd]⟩ φ₁) (Wh : FVec Ideal ⟨2, ![Hd, Hd]⟩ φ₂) (b : FVec Ideal ⟨2, ![1, Hd]⟩ .f32)
    (hb : (⟨2, ![1, Hd]⟩ : Shape).Broadcasts ⟨2, ![M, Hd]⟩) : FVec Ideal ⟨2, ![M, Hd]⟩ .f32 :=
  addf (addf (matmul d1 none x Wx (constant (F := Ideal) ⟨2, ![M, Hd]⟩ .f32 0x00000000#32))
      (matmul d2 none h Wh (constant (F := Ideal) ⟨2, ![M, Hd]⟩ .f32 0x00000000#32)))
    (broadcastTo ⟨2, ![M, Hd]⟩ b hb)

/-- Read at (r, j), it is the gate's sum of row r. -/
theorem kPre_apply {φx φh φ₁ φ₂ : FTy} (d1 : DotDims ⟨2, ![M, D]⟩ ⟨2, ![D, Hd]⟩ ⟨2, ![M, Hd]⟩)
    (hd1 : d1 = DotDims.plain M D Hd) (d2 : DotDims ⟨2, ![M, Hd]⟩ ⟨2, ![Hd, Hd]⟩ ⟨2, ![M, Hd]⟩)
    (hd2 : d2 = DotDims.plain M Hd Hd)
    (x : FVec Ideal ⟨2, ![M, D]⟩ φx) (h : FVec Ideal ⟨2, ![M, Hd]⟩ φh)
    (Wx : FVec Ideal ⟨2, ![D, Hd]⟩ φ₁) (Wh : FVec Ideal ⟨2, ![Hd, Hd]⟩ φ₂) (b : FVec Ideal ⟨2, ![1, Hd]⟩ .f32)
    (hb : (⟨2, ![1, Hd]⟩ : Shape).Broadcasts ⟨2, ![M, Hd]⟩) (r : Fin M) (j : Fin Hd)
    (xr : Fin D → EReal) (hxr : ∀ k, x (ix2 r k) = xr k) (hr : Fin Hd → EReal) (hhr : ∀ k, h (ix2 r k) = hr k) :
    kPre d1 d2 x h Wx Wh b hb (ix2 r j)
      = pre xr hr (fun k j => Wx (ix2 k j)) (fun k j => Wh (ix2 k j)) (fun j => b (ix2 (0 : Fin 1) j)) j := by
  subst hd1 hd2
  show (FloatOps.matmul (DotDims.plain M D Hd) none x Wx (constant ⟨2, ![M, Hd]⟩ .f32 0x00000000#32) (ix2 r j)
      + FloatOps.matmul (DotDims.plain M Hd Hd) none h Wh (constant ⟨2, ![M, Hd]⟩ .f32 0x00000000#32) (ix2 r j))
      + broadcastTo ⟨2, ![M, Hd]⟩ b hb (ix2 r j) = _
  rw [matmul_plain_zero_apply, matmul_plain_zero_apply, broadcastTo_1b_ab_apply]
  unfold pre
  simp only [hxr, hhr]

/-- The whole step on a tile, as a kernel writes it: the state narrowed on the way into each product, the gates by
    the logistic operation, one splat for the 1 of 1 - Z. -/
def kTile (d1 : DotDims ⟨2, ![M, D]⟩ ⟨2, ![D, Hd]⟩ ⟨2, ![M, Hd]⟩)
    (d2 : DotDims ⟨2, ![M, Hd]⟩ ⟨2, ![Hd, Hd]⟩ ⟨2, ![M, Hd]⟩)
    (d3 : DotDims ⟨2, ![M, Hd]⟩ ⟨2, ![Hd, 1]⟩ ⟨2, ![M, 1]⟩)
    (x : FVec Ideal ⟨2, ![M, D]⟩ .bf16) (h : FVec Ideal ⟨2, ![M, Hd]⟩ .f32)
    (Wxz : FVec Ideal ⟨2, ![D, Hd]⟩ .bf16) (Whz : FVec Ideal ⟨2, ![Hd, Hd]⟩ .bf16) (bz : FVec Ideal ⟨2, ![1, Hd]⟩ .f32)
    (Wxr : FVec Ideal ⟨2, ![D, Hd]⟩ .bf16) (Whr : FVec Ideal ⟨2, ![Hd, Hd]⟩ .bf16) (br : FVec Ideal ⟨2, ![1, Hd]⟩ .f32)
    (Wxh : FVec Ideal ⟨2, ![D, Hd]⟩ .bf16) (Whh : FVec Ideal ⟨2, ![Hd, Hd]⟩ .bf16) (bh : FVec Ideal ⟨2, ![1, Hd]⟩ .f32)
    (Wq : FVec Ideal ⟨2, ![Hd, 1]⟩ .bf16) (bq : FVec Ideal ⟨2, ![1, 1]⟩ .f32)
    (hb : (⟨2, ![1, Hd]⟩ : Shape).Broadcasts ⟨2, ![M, Hd]⟩) (hbq : (⟨2, ![1, 1]⟩ : Shape).Broadcasts ⟨2, ![M, 1]⟩)
    (hlt : FTy.bf16.bits < FTy.f32.bits) : FVec Ideal ⟨2, ![M, 1]⟩ .f32 :=
  addf (matmul d3 none
      (truncf .bf16
        (addf (mulf (logistic (kPre d1 d2 x (truncf .bf16 h hlt) Wxz Whz bz hb)) h)
          (mulf (subf (broadcast ⟨2, ![M, Hd]⟩ (Scalar.ofBits (F := Ideal) .f32 0x3F800000#32))
              (logistic (kPre d1 d2 x (truncf .bf16 h hlt) Wxz Whz bz hb)))
            (tanh (kPre d1 d2 x
              (truncf .bf16 (mulf (logistic (kPre d1 d2 x (truncf .bf16 h hlt) Wxr Whr br hb)) h) hlt) Wxh Whh bh hb))))
        hlt)
      Wq (constant (F := Ideal) ⟨2, ![M, 1]⟩ .f32 0x00000000#32))
    (broadcastTo ⟨2, ![M, 1]⟩ bq hbq)

/-- Read at row r it is the step of that row. -/
theorem kTile_apply (d1 : DotDims ⟨2, ![M, D]⟩ ⟨2, ![D, Hd]⟩ ⟨2, ![M, Hd]⟩) (hd1 : d1 = DotDims.plain M D Hd)
    (d2 : DotDims ⟨2, ![M, Hd]⟩ ⟨2, ![Hd, Hd]⟩ ⟨2, ![M, Hd]⟩) (hd2 : d2 = DotDims.plain M Hd Hd)
    (d3 : DotDims ⟨2, ![M, Hd]⟩ ⟨2, ![Hd, 1]⟩ ⟨2, ![M, 1]⟩) (hd3 : d3 = DotDims.plain M Hd 1)
    (x : FVec Ideal ⟨2, ![M, D]⟩ .bf16) (h : FVec Ideal ⟨2, ![M, Hd]⟩ .f32)
    (Wxz : FVec Ideal ⟨2, ![D, Hd]⟩ .bf16) (Whz : FVec Ideal ⟨2, ![Hd, Hd]⟩ .bf16) (bz : FVec Ideal ⟨2, ![1, Hd]⟩ .f32)
    (Wxr : FVec Ideal ⟨2, ![D, Hd]⟩ .bf16) (Whr : FVec Ideal ⟨2, ![Hd, Hd]⟩ .bf16) (br : FVec Ideal ⟨2, ![1, Hd]⟩ .f32)
    (Wxh : FVec Ideal ⟨2, ![D, Hd]⟩ .bf16) (Whh : FVec Ideal ⟨2, ![Hd, Hd]⟩ .bf16) (bh : FVec Ideal ⟨2, ![1, Hd]⟩ .f32)
    (Wq : FVec Ideal ⟨2, ![Hd, 1]⟩ .bf16) (bq : FVec Ideal ⟨2, ![1, 1]⟩ .f32)
    (hb : (⟨2, ![1, Hd]⟩ : Shape).Broadcasts ⟨2, ![M, Hd]⟩) (hbq : (⟨2, ![1, 1]⟩ : Shape).Broadcasts ⟨2, ![M, 1]⟩)
    (hlt : FTy.bf16.bits < FTy.f32.bits) (r : Fin M) :
    kTile d1 d2 d3 x h Wxz Whz bz Wxr Whr br Wxh Whh bh Wq bq hb hbq hlt (ix2 r (0 : Fin 1))
      = step (fun k => x (ix2 r k)) (fun k => h (ix2 r k))
          (fun k j => Wxz (ix2 k j)) (fun k j => Whz (ix2 k j)) (fun j => bz (ix2 (0 : Fin 1) j))
          (fun k j => Wxr (ix2 k j)) (fun k j => Whr (ix2 k j)) (fun j => br (ix2 (0 : Fin 1) j))
          (fun k j => Wxh (ix2 k j)) (fun k j => Whh (ix2 k j)) (fun j => bh (ix2 (0 : Fin 1) j))
          (fun k => Wq (ix2 k (0 : Fin 1))) (bq (ix2 (0 : Fin 1) (0 : Fin 1))) := by
  subst hd3
  have hZ : ∀ k : Fin Hd, logistic (kPre d1 d2 x (truncf .bf16 h hlt) Wxz Whz bz hb) (ix2 r k)
      = Ideal.logistic (pre (fun k => x (ix2 r k)) (fun k => h (ix2 r k)) (fun k j => Wxz (ix2 k j))
          (fun k j => Whz (ix2 k j)) (fun j => bz (ix2 (0 : Fin 1) j)) k) :=
    fun k => congrArg Ideal.logistic
      (kPre_apply d1 hd1 d2 hd2 x (truncf .bf16 h hlt) Wxz Whz bz hb r k _ (fun _ => rfl) _ (fun _ => rfl))
  have hR : ∀ k : Fin Hd, logistic (kPre d1 d2 x (truncf .bf16 h hlt) Wxr Whr br hb) (ix2 r k)
      = Ideal.logistic (pre (fun k => x (ix2 r k)) (fun k => h (ix2 r k)) (fun k j => Wxr (ix2 k j))
          (fun k j => Whr (ix2 k j)) (fun j => br (ix2 (0 : Fin 1) j)) k) :=
    fun k => congrArg Ideal.logistic
      (kPre_apply d1 hd1 d2 hd2 x (truncf .bf16 h hlt) Wxr Whr br hb r k _ (fun _ => rfl) _ (fun _ => rfl))
  have hT : ∀ k : Fin Hd,
      tanh (kPre d1 d2 x
          (truncf .bf16 (mulf (logistic (kPre d1 d2 x (truncf .bf16 h hlt) Wxr Whr br hb)) h) hlt) Wxh Whh bh hb) (ix2 r k)
      = Ideal.tanh (pre (fun k => x (ix2 r k))
          (fun l => Ideal.logistic (pre (fun k => x (ix2 r k)) (fun k => h (ix2 r k)) (fun k j => Wxr (ix2 k j))
            (fun k j => Whr (ix2 k j)) (fun j => br (ix2 (0 : Fin 1) j)) l) * h (ix2 r l))
          (fun k j => Wxh (ix2 k j)) (fun k j => Whh (ix2 k j)) (fun j => bh (ix2 (0 : Fin 1) j)) k) :=
    fun k => congrArg Ideal.tanh
      (kPre_apply d1 hd1 d2 hd2 x _ Wxh Whh bh hb r k _ (fun _ => rfl) _ (fun l => by
        show logistic (kPre d1 d2 x (truncf .bf16 h hlt) Wxr Whr br hb) (ix2 r l) * h (ix2 r l) = _
        rw [hR l]))
  show FloatOps.matmul (DotDims.plain M Hd 1) none _ Wq (constant ⟨2, ![M, 1]⟩ .f32 0x00000000#32) (ix2 r (0 : Fin 1))
      + broadcastTo ⟨2, ![M, 1]⟩ bq hbq (ix2 r (0 : Fin 1)) = _
  rw [matmul_plain_zero_apply, broadcastTo_1b_ab_apply]
  unfold step
  refine congrArg (· + bq (ix2 (0 : Fin 1) (0 : Fin 1))) (Finset.sum_congr rfl fun k _ => congrArg (· * Wq (ix2 k (0 : Fin 1))) ?_)
  show logistic (kPre d1 d2 x (truncf .bf16 h hlt) Wxz Whz bz hb) (ix2 r k) * h (ix2 r k)
      + (one - logistic (kPre d1 d2 x (truncf .bf16 h hlt) Wxz Whz bz hb) (ix2 r k))
        * tanh (kPre d1 d2 x
            (truncf .bf16 (mulf (logistic (kPre d1 d2 x (truncf .bf16 h hlt) Wxr Whr br hb)) h) hlt) Wxh Whh bh hb) (ix2 r k)
      = _
  rw [hZ k, hT k]

end Kernel

/-! ## The step as a host program spells it on a batch of M rows -/

section Host

variable {M : ℕ}

/-- A gate's sum as a host program writes it: two products added, plus a bias vector laid along axis 1 of a one-row
    matrix and that row down the rows. -/
def hPre (d1 : DotDims ⟨2, ![M, D]⟩ ⟨2, ![D, Hd]⟩ ⟨2, ![M, Hd]⟩)
    (d2 : DotDims ⟨2, ![M, Hd]⟩ ⟨2, ![Hd, Hd]⟩ ⟨2, ![M, Hd]⟩)
    (x : FVec Ideal ⟨2, ![M, D]⟩ .f32) (h : FVec Ideal ⟨2, ![M, Hd]⟩ .f32)
    (Wx : FVec Ideal ⟨2, ![D, Hd]⟩ .f32) (Wh : FVec Ideal ⟨2, ![Hd, Hd]⟩ .f32) (b : FVec Ideal ⟨1, ![Hd]⟩ .f32)
    (h1 : (⟨1, ![Hd]⟩ : Shape).BroadcastsInDim ⟨2, ![1, Hd]⟩ ![1])
    (h2 : (⟨2, ![1, Hd]⟩ : Shape).BroadcastsInDim ⟨2, ![M, Hd]⟩ ![0, 1]) : FVec Ideal ⟨2, ![M, Hd]⟩ .f32 :=
  addf (addf (Host.dotGeneral d1 none x Wx) (Host.dotGeneral d2 none h Wh))
    (broadcastInDim ⟨2, ![M, Hd]⟩ ![0, 1] h2 (broadcastInDim ⟨2, ![1, Hd]⟩ ![1] h1 b))

/-- Read at (r, j), it is the gate's sum of row r. -/
theorem hPre_apply (d1 : DotDims ⟨2, ![M, D]⟩ ⟨2, ![D, Hd]⟩ ⟨2, ![M, Hd]⟩) (hd1 : d1 = DotDims.plain M D Hd)
    (d2 : DotDims ⟨2, ![M, Hd]⟩ ⟨2, ![Hd, Hd]⟩ ⟨2, ![M, Hd]⟩) (hd2 : d2 = DotDims.plain M Hd Hd)
    (x : FVec Ideal ⟨2, ![M, D]⟩ .f32) (h : FVec Ideal ⟨2, ![M, Hd]⟩ .f32)
    (Wx : FVec Ideal ⟨2, ![D, Hd]⟩ .f32) (Wh : FVec Ideal ⟨2, ![Hd, Hd]⟩ .f32) (b : FVec Ideal ⟨1, ![Hd]⟩ .f32)
    (h1 : (⟨1, ![Hd]⟩ : Shape).BroadcastsInDim ⟨2, ![1, Hd]⟩ ![1])
    (h2 : (⟨2, ![1, Hd]⟩ : Shape).BroadcastsInDim ⟨2, ![M, Hd]⟩ ![0, 1]) (r : Fin M) (j : Fin Hd)
    (xr : Fin D → EReal) (hxr : ∀ k, x (ix2 r k) = xr k) (hr : Fin Hd → EReal) (hhr : ∀ k, h (ix2 r k) = hr k) :
    hPre d1 d2 x h Wx Wh b h1 h2 (ix2 r j)
      = pre xr hr (fun k j => Wx (ix2 k j)) (fun k j => Wh (ix2 k j)) (fun j => b (ix1 j)) j := by
  subst hd1 hd2
  have e2 := broadcastInDim_oneRow_apply h2 (broadcastInDim ⟨2, ![1, Hd]⟩ ![1] h1 b) r j
  have e1 := broadcastInDim_apply ![1] h1 b (ix2 (0 : Fin 1) j) (ix1 j) (fun a => by
    match a with
    | ⟨0, _⟩ =>
      show j.val = if Hd = 1 then 0 else j.val
      split
      · have := j.isLt; omega
      · rfl)
  show (FloatOps.dotGeneral (DotDims.plain M D Hd) none .single x Wx (ix2 r j)
      + FloatOps.dotGeneral (DotDims.plain M Hd Hd) none .single h Wh (ix2 r j))
      + broadcastInDim ⟨2, ![M, Hd]⟩ ![0, 1] h2 (broadcastInDim ⟨2, ![1, Hd]⟩ ![1] h1 b) (ix2 r j) = _
  rw [dotGeneral_plain_apply, dotGeneral_plain_apply, e2, e1]
  unfold pre
  simp only [hxr, hhr]

/-- The logistic function as a host program expands it: 1 / (1 + exp (-v)), both ones a broadcast scalar. -/
def hSig {s : Shape} (h0 : (⟨0, ![]⟩ : Shape).BroadcastsInDim s ![]) (v : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf v)))

/-- A broadcast scalar 1.0 read anywhere. -/
theorem bcastOne_apply {s : Shape} (h0 : (⟨0, ![]⟩ : Shape).BroadcastsInDim s ![]) (i : s.Idx) :
    broadcastInDim s ![] h0 (constant (F := Ideal) ⟨0, ![]⟩ .f32 0x3F800000#32) i = one :=
  broadcastInDim_apply ![] h0 (constant (F := Ideal) ⟨0, ![]⟩ .f32 0x3F800000#32) i (fun a => a.elim0) (fun a => a.elim0)

/-- Entry by entry the expansion is the logistic function. -/
theorem hSig_apply {s : Shape} (h0 : (⟨0, ![]⟩ : Shape).BroadcastsInDim s ![]) (v : FVec Ideal s .f32) (i : s.Idx) :
    hSig h0 v i = Ideal.logistic (v i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(v i))) = _
  rw [bcastOne_apply, one_eq]
  rfl

/-- The whole step on a batch, as a host program writes it. -/
def hTile (d1 : DotDims ⟨2, ![M, D]⟩ ⟨2, ![D, Hd]⟩ ⟨2, ![M, Hd]⟩)
    (d2 : DotDims ⟨2, ![M, Hd]⟩ ⟨2, ![Hd, Hd]⟩ ⟨2, ![M, Hd]⟩)
    (d3 : DotDims ⟨2, ![M, Hd]⟩ ⟨2, ![Hd, 1]⟩ ⟨2, ![M, 1]⟩)
    (x : FVec Ideal ⟨2, ![M, D]⟩ .f32) (h : FVec Ideal ⟨2, ![M, Hd]⟩ .f32)
    (Wxz : FVec Ideal ⟨2, ![D, Hd]⟩ .f32) (Whz : FVec Ideal ⟨2, ![Hd, Hd]⟩ .f32) (bz : FVec Ideal ⟨1, ![Hd]⟩ .f32)
    (Wxr : FVec Ideal ⟨2, ![D, Hd]⟩ .f32) (Whr : FVec Ideal ⟨2, ![Hd, Hd]⟩ .f32) (br : FVec Ideal ⟨1, ![Hd]⟩ .f32)
    (Wxh : FVec Ideal ⟨2, ![D, Hd]⟩ .f32) (Whh : FVec Ideal ⟨2, ![Hd, Hd]⟩ .f32) (bh : FVec Ideal ⟨1, ![Hd]⟩ .f32)
    (Wq : FVec Ideal ⟨2, ![Hd, 1]⟩ .f32) (bq : FVec Ideal ⟨1, ![1]⟩ .f32)
    (h1 : (⟨1, ![Hd]⟩ : Shape).BroadcastsInDim ⟨2, ![1, Hd]⟩ ![1])
    (h2 : (⟨2, ![1, Hd]⟩ : Shape).BroadcastsInDim ⟨2, ![M, Hd]⟩ ![0, 1])
    (h0 : (⟨0, ![]⟩ : Shape).BroadcastsInDim ⟨2, ![M, Hd]⟩ ![])
    (q1 : (⟨1, ![1]⟩ : Shape).BroadcastsInDim ⟨2, ![1, 1]⟩ ![1])
    (q2 : (⟨2, ![1, 1]⟩ : Shape).BroadcastsInDim ⟨2, ![M, 1]⟩ ![0, 1]) : FVec Ideal ⟨2, ![M, 1]⟩ .f32 :=
  addf (Host.dotGeneral d3 none
      (addf (mulf (hSig h0 (hPre d1 d2 x h Wxz Whz bz h1 h2)) h)
        (mulf (subf (broadcastInDim ⟨2, ![M, Hd]⟩ ![] h0 (constant (F := Ideal) ⟨0, ![]⟩ .f32 0x3F800000#32))
            (hSig h0 (hPre d1 d2 x h Wxz Whz bz h1 h2)))
          (Host.tanh (hPre d1 d2 x (mulf (hSig h0 (hPre d1 d2 x h Wxr Whr br h1 h2)) h) Wxh Whh bh h1 h2))))
      Wq)
    (broadcastInDim ⟨2, ![M, 1]⟩ ![0, 1] q2 (broadcastInDim ⟨2, ![1, 1]⟩ ![1] q1 bq))

/-- Read at row r it is the step of that row. -/
theorem hTile_apply (d1 : DotDims ⟨2, ![M, D]⟩ ⟨2, ![D, Hd]⟩ ⟨2, ![M, Hd]⟩) (hd1 : d1 = DotDims.plain M D Hd)
    (d2 : DotDims ⟨2, ![M, Hd]⟩ ⟨2, ![Hd, Hd]⟩ ⟨2, ![M, Hd]⟩) (hd2 : d2 = DotDims.plain M Hd Hd)
    (d3 : DotDims ⟨2, ![M, Hd]⟩ ⟨2, ![Hd, 1]⟩ ⟨2, ![M, 1]⟩) (hd3 : d3 = DotDims.plain M Hd 1)
    (x : FVec Ideal ⟨2, ![M, D]⟩ .f32) (h : FVec Ideal ⟨2, ![M, Hd]⟩ .f32)
    (Wxz : FVec Ideal ⟨2, ![D, Hd]⟩ .f32) (Whz : FVec Ideal ⟨2, ![Hd, Hd]⟩ .f32) (bz : FVec Ideal ⟨1, ![Hd]⟩ .f32)
    (Wxr : FVec Ideal ⟨2, ![D, Hd]⟩ .f32) (Whr : FVec Ideal ⟨2, ![Hd, Hd]⟩ .f32) (br : FVec Ideal ⟨1, ![Hd]⟩ .f32)
    (Wxh : FVec Ideal ⟨2, ![D, Hd]⟩ .f32) (Whh : FVec Ideal ⟨2, ![Hd, Hd]⟩ .f32) (bh : FVec Ideal ⟨1, ![Hd]⟩ .f32)
    (Wq : FVec Ideal ⟨2, ![Hd, 1]⟩ .f32) (bq : FVec Ideal ⟨1, ![1]⟩ .f32)
    (h1 : (⟨1, ![Hd]⟩ : Shape).BroadcastsInDim ⟨2, ![1, Hd]⟩ ![1])
    (h2 : (⟨2, ![1, Hd]⟩ : Shape).BroadcastsInDim ⟨2, ![M, Hd]⟩ ![0, 1])
    (h0 : (⟨0, ![]⟩ : Shape).BroadcastsInDim ⟨2, ![M, Hd]⟩ ![])
    (q1 : (⟨1, ![1]⟩ : Shape).BroadcastsInDim ⟨2, ![1, 1]⟩ ![1])
    (q2 : (⟨2, ![1, 1]⟩ : Shape).BroadcastsInDim ⟨2, ![M, 1]⟩ ![0, 1]) (r : Fin M) :
    hTile d1 d2 d3 x h Wxz Whz bz Wxr Whr br Wxh Whh bh Wq bq h1 h2 h0 q1 q2 (ix2 r (0 : Fin 1))
      = step (fun k => x (ix2 r k)) (fun k => h (ix2 r k))
          (fun k j => Wxz (ix2 k j)) (fun k j => Whz (ix2 k j)) (fun j => bz (ix1 j))
          (fun k j => Wxr (ix2 k j)) (fun k j => Whr (ix2 k j)) (fun j => br (ix1 j))
          (fun k j => Wxh (ix2 k j)) (fun k j => Whh (ix2 k j)) (fun j => bh (ix1 j))
          (fun k => Wq (ix2 k (0 : Fin 1))) (bq (ix1 (0 : Fin 1))) := by
  subst hd3
  have hZ : ∀ k : Fin Hd, hSig h0 (hPre d1 d2 x h Wxz Whz bz h1 h2) (ix2 r k)
      = Ideal.logistic (pre (fun k => x (ix2 r k)) (fun k => h (ix2 r k)) (fun k j => Wxz (ix2 k j))
          (fun k j => Whz (ix2 k j)) (fun j => bz (ix1 j)) k) :=
    fun k => (hSig_apply h0 _ _).trans (congrArg Ideal.logistic
      (hPre_apply d1 hd1 d2 hd2 x h Wxz Whz bz h1 h2 r k _ (fun _ => rfl) _ (fun _ => rfl)))
  have hR : ∀ k : Fin Hd, hSig h0 (hPre d1 d2 x h Wxr Whr br h1 h2) (ix2 r k)
      = Ideal.logistic (pre (fun k => x (ix2 r k)) (fun k => h (ix2 r k)) (fun k j => Wxr (ix2 k j))
          (fun k j => Whr (ix2 k j)) (fun j => br (ix1 j)) k) :=
    fun k => (hSig_apply h0 _ _).trans (congrArg Ideal.logistic
      (hPre_apply d1 hd1 d2 hd2 x h Wxr Whr br h1 h2 r k _ (fun _ => rfl) _ (fun _ => rfl)))
  have hT : ∀ k : Fin Hd,
      Host.tanh (hPre d1 d2 x (mulf (hSig h0 (hPre d1 d2 x h Wxr Whr br h1 h2)) h) Wxh Whh bh h1 h2) (ix2 r k)
      = Ideal.tanh (pre (fun k => x (ix2 r k))
          (fun l => Ideal.logistic (pre (fun k => x (ix2 r k)) (fun k => h (ix2 r k)) (fun k j => Wxr (ix2 k j))
            (fun k j => Whr (ix2 k j)) (fun j => br (ix1 j)) l) * h (ix2 r l))
          (fun k j => Wxh (ix2 k j)) (fun k j => Whh (ix2 k j)) (fun j => bh (ix1 j)) k) :=
    fun k => congrArg Ideal.tanh
      (hPre_apply d1 hd1 d2 hd2 x _ Wxh Whh bh h1 h2 r k _ (fun _ => rfl) _ (fun l => by
        show hSig h0 (hPre d1 d2 x h Wxr Whr br h1 h2) (ix2 r l) * h (ix2 r l) = _
        rw [hR l]))
  have eq2 := broadcastInDim_oneRow_apply q2 (broadcastInDim ⟨2, ![1, 1]⟩ ![1] q1 bq) r (0 : Fin 1)
  have eq1 := broadcastInDim_apply ![1] q1 bq (ix2 (0 : Fin 1) (0 : Fin 1)) (ix1 (0 : Fin 1)) (fun a => by
    match a with
    | ⟨0, _⟩ => rfl)
  show FloatOps.dotGeneral (DotDims.plain M Hd 1) none .single _ Wq (ix2 r (0 : Fin 1))
      + broadcastInDim ⟨2, ![M, 1]⟩ ![0, 1] q2 (broadcastInDim ⟨2, ![1, 1]⟩ ![1] q1 bq) (ix2 r (0 : Fin 1)) = _
  rw [dotGeneral_plain_apply, eq2, eq1]
  unfold step
  refine congrArg (· + bq (ix1 (0 : Fin 1))) (Finset.sum_congr rfl fun k _ => congrArg (· * Wq (ix2 k (0 : Fin 1))) ?_)
  show hSig h0 (hPre d1 d2 x h Wxz Whz bz h1 h2) (ix2 r k) * h (ix2 r k)
      + (broadcastInDim ⟨2, ![M, Hd]⟩ ![] h0 (constant (F := Ideal) ⟨0, ![]⟩ .f32 0x3F800000#32) (ix2 r k)
          - hSig h0 (hPre d1 d2 x h Wxz Whz bz h1 h2) (ix2 r k))
        * Host.tanh (hPre d1 d2 x (mulf (hSig h0 (hPre d1 d2 x h Wxr Whr br h1 h2)) h) Wxh Whh bh h1 h2) (ix2 r k)
      = _
  rw [hZ k, hT k, bcastOne_apply]

/-- The outputs of a batch of M paths, one entry per path: the step of the path's own rows under the shared weights. -/
def batch (x : FVec Ideal ⟨2, ![M, D]⟩ .f32) (h : FVec Ideal ⟨2, ![M, Hd]⟩ .f32)
    (Wxz : FVec Ideal ⟨2, ![D, Hd]⟩ .f32) (Whz : FVec Ideal ⟨2, ![Hd, Hd]⟩ .f32) (bz : FVec Ideal ⟨1, ![Hd]⟩ .f32)
    (Wxr : FVec Ideal ⟨2, ![D, Hd]⟩ .f32) (Whr : FVec Ideal ⟨2, ![Hd, Hd]⟩ .f32) (br : FVec Ideal ⟨1, ![Hd]⟩ .f32)
    (Wxh : FVec Ideal ⟨2, ![D, Hd]⟩ .f32) (Whh : FVec Ideal ⟨2, ![Hd, Hd]⟩ .f32) (bh : FVec Ideal ⟨1, ![Hd]⟩ .f32)
    (Wq : FVec Ideal ⟨2, ![Hd, 1]⟩ .f32) (bq : FVec Ideal ⟨1, ![1]⟩ .f32) : FVec Ideal ⟨2, ![M, 1]⟩ .f32 :=
  fun i => step (fun k => x (ix2 (i 0) k)) (fun k => h (ix2 (i 0) k))
    (fun k j => Wxz (ix2 k j)) (fun k j => Whz (ix2 k j)) (fun j => bz (ix1 j))
    (fun k j => Wxr (ix2 k j)) (fun k j => Whr (ix2 k j)) (fun j => br (ix1 j))
    (fun k j => Wxh (ix2 k j)) (fun k j => Whh (ix2 k j)) (fun j => bh (ix1 j))
    (fun k => Wq (ix2 k (0 : Fin 1))) (bq (ix1 (0 : Fin 1)))

/-- The host program's batch is that array. -/
theorem hTile_eq_batch (d1 : DotDims ⟨2, ![M, D]⟩ ⟨2, ![D, Hd]⟩ ⟨2, ![M, Hd]⟩) (hd1 : d1 = DotDims.plain M D Hd)
    (d2 : DotDims ⟨2, ![M, Hd]⟩ ⟨2, ![Hd, Hd]⟩ ⟨2, ![M, Hd]⟩) (hd2 : d2 = DotDims.plain M Hd Hd)
    (d3 : DotDims ⟨2, ![M, Hd]⟩ ⟨2, ![Hd, 1]⟩ ⟨2, ![M, 1]⟩) (hd3 : d3 = DotDims.plain M Hd 1)
    (x : FVec Ideal ⟨2, ![M, D]⟩ .f32) (h : FVec Ideal ⟨2, ![M, Hd]⟩ .f32)
    (Wxz : FVec Ideal ⟨2, ![D, Hd]⟩ .f32) (Whz : FVec Ideal ⟨2, ![Hd, Hd]⟩ .f32) (bz : FVec Ideal ⟨1, ![Hd]⟩ .f32)
    (Wxr : FVec Ideal ⟨2, ![D, Hd]⟩ .f32) (Whr : FVec Ideal ⟨2, ![Hd, Hd]⟩ .f32) (br : FVec Ideal ⟨1, ![Hd]⟩ .f32)
    (Wxh : FVec Ideal ⟨2, ![D, Hd]⟩ .f32) (Whh : FVec Ideal ⟨2, ![Hd, Hd]⟩ .f32) (bh : FVec Ideal ⟨1, ![Hd]⟩ .f32)
    (Wq : FVec Ideal ⟨2, ![Hd, 1]⟩ .f32) (bq : FVec Ideal ⟨1, ![1]⟩ .f32)
    (h1 : (⟨1, ![Hd]⟩ : Shape).BroadcastsInDim ⟨2, ![1, Hd]⟩ ![1])
    (h2 : (⟨2, ![1, Hd]⟩ : Shape).BroadcastsInDim ⟨2, ![M, Hd]⟩ ![0, 1])
    (h0 : (⟨0, ![]⟩ : Shape).BroadcastsInDim ⟨2, ![M, Hd]⟩ ![])
    (q1 : (⟨1, ![1]⟩ : Shape).BroadcastsInDim ⟨2, ![1, 1]⟩ ![1])
    (q2 : (⟨2, ![1, 1]⟩ : Shape).BroadcastsInDim ⟨2, ![M, 1]⟩ ![0, 1]) :
    hTile d1 d2 d3 x h Wxz Whz bz Wxr Whr br Wxh Whh bh Wq bq h1 h2 h0 q1 q2
      = batch x h Wxz Whz bz Wxr Whr br Wxh Whh bh Wq bq := by
  funext i
  obtain ⟨r, q, rfl⟩ : ∃ (r : Fin M) (q : Fin 1), i = ix2 r q := ⟨i 0, i 1, eq_ix2 i⟩
  obtain rfl : q = 0 := Subsingleton.elim _ _
  exact hTile_apply d1 hd1 d2 hd2 d3 hd3 x h Wxz Whz bz Wxr Whr br Wxh Whh bh Wq bq h1 h2 h0 q1 q2 r

end Host

end Cert.GruStep

end
-- ==== Proof.KernelTile.lean ====
/-
  The tile program's one store, read at a row.

  At a grid point the body loads a tile of 128 input rows and 128 state rows together with the whole weight
  matrices and bias rows, and stores one column of 128 numbers. Entry p of that column is the recurrent step of
  row p of the tile: the casts to the same shape are the identity, and what is left is the kernel's spelling of
  the step on a tile of 128 rows.
-/
import proofs.«102342_j62551903699450_1_alg».proof.Proof.Gen.KernelIdeal.Skeleton
import proofs.«102342_j62551903699450_1_alg».proof.Proof.GruStep

noncomputable section

namespace Cert.KernelIdeal.GruTile

open Cert.KernelIdeal Cert.KernelIdeal.Gen Idealize.ShloMosaic Idealize.ShloMosaic.ValueIdx Cert.GruStep

/-- The stored column at entry p, from the loaded tiles and weights. -/
theorem pay_apply (x0 : Vec Ideal S128x128 .bf16) (x1 : Vec Ideal S128x2048 .f32)
    (x2 : Vec Ideal S128x2048 .bf16) (x3 : Vec Ideal S2048x2048 .bf16) (x4 : Vec Ideal S1x2048 .f32)
    (x5 : Vec Ideal S128x2048 .bf16) (x6 : Vec Ideal S2048x2048 .bf16) (x7 : Vec Ideal S1x2048 .f32)
    (x8 : Vec Ideal S128x2048 .bf16) (x9 : Vec Ideal S2048x2048 .bf16) (x10 : Vec Ideal S1x2048 .f32)
    (x11 : Vec Ideal S2048x1 .bf16) (x12 : Vec Ideal S1x1 .f32) (p : Fin 128) :
    k0_pay1 x1 (k0_pay4 x0 x1 x2 x3 x4) (k0_pay5 x0 x1 x5 x6 x7) (k0_pay6 x0 x8) x9 x10 x11 x12 (ix2 p (0 : Fin 1))
      = step (fun k => x0 (ix2 p k)) (fun k => x1 (ix2 p k))
          (fun k j => x2 (ix2 k j)) (fun k j => x3 (ix2 k j)) (fun j => x4 (ix2 (0 : Fin 1) j))
          (fun k j => x5 (ix2 k j)) (fun k j => x6 (ix2 k j)) (fun j => x7 (ix2 (0 : Fin 1) j))
          (fun k j => x8 (ix2 k j)) (fun k j => x9 (ix2 k j)) (fun j => x10 (ix2 (0 : Fin 1) j))
          (fun k => x11 (ix2 k (0 : Fin 1))) (x12 (ix2 (0 : Fin 1) (0 : Fin 1))) := by
  unfold k0_pay1 k0_pay4 k0_pay5 k0_pay6 k0_pay2 k0_pay3
  simp only [shapeCast_self]
  exact kTile_apply dot_S128x128_S128x2048_S128x2048_1_0_0_1_n_n rfl dot_S128x2048_S2048x2048_S128x2048_1_0_0_1_n_n rfl
    dot_S128x2048_S2048x1_S128x1_1_0_0_1_n_n rfl x0 x1 x2 x3 x4 x5 x6 x7 x8 x9 x10 x11 x12
    broadcasts_S1x2048_S128x2048 broadcasts_S1x1_S128x1 bitsLt_bf16_f32 p

end Cert.KernelIdeal.GruTile

end
-- ==== Proof.KernelValue.lean ====
/-
  The kernel's result array after the run is the batch of recurrent steps.

  The grid has 256 points; point t stages rows 128·t … 128·t + 127 of the input and of the state, every weight matrix
  and bias row whole, and writes back rows 128·t … 128·t + 127 of the one-column result. The arrays the region reads
  are the arguments themselves (narrowing a float is the identity on the extended reals) or, for the biases, the
  argument vector cast to one row. So what point t writes back is block t of the batch function, the 256 blocks tile
  the result, and the result array ends holding the batch function of the arguments.
-/
import proofs.«102342_j62551903699450_1_alg».proof.Proof.Gen.KernelIdeal.Value
import proofs.«102342_j62551903699450_1_alg».proof.Proof.KernelTile
import Idealize.ShloMosaic.Lib.StableHlo.Run
import Idealize.ShloMosaic.Lib.ValueLayout

noncomputable section

namespace Cert.KernelIdeal.GruValue

open Cert.KernelIdeal Cert.KernelIdeal.Gen Cert.KernelIdeal.Value Cert.KernelIdeal.GruTile
open Idealize.ShloMosaic Idealize.ShloMosaic.TcCoe Idealize.SL.Sem
open Idealize.ShloMosaic.ValueIdx Idealize.ShloMosaic.StableHlo Cert.GruStep
open Idealize.ShloMosaic.Pipeline (Dat)

variable (m : (ℓ : Loc nD τ sig) → Buf (Elt Ideal) ℓ) (ρ : Dev nD → PrngReg)

/-! ## The arrays the region reads -/

theorem V_w0 (c : Dev nD) : (V m c main_v0 : S32768x128.Idx → EReal) = m ((c : Thread nD τ).loc main_arg0) := by
  dsimp only [Gen.V, Gen.hostOps0]; after_results; rfl
theorem V_w2 (c : Dev nD) : (V m c main_v1 : S128x2048.Idx → EReal) = m ((c : Thread nD τ).loc main_arg2) := by
  dsimp only [Gen.V, Gen.hostOps0]; after_results; rfl
theorem V_w3 (c : Dev nD) : (V m c main_v2 : S2048x2048.Idx → EReal) = m ((c : Thread nD τ).loc main_arg3) := by
  dsimp only [Gen.V, Gen.hostOps0]; after_results; rfl
theorem V_w4 (c : Dev nD) : (V m c main_v8 : S1x2048.Idx → EReal) = shapeCast S1x2048 (m ((c : Thread nD τ).loc main_arg4)) shapeCasts_S2048_S1x2048 := by
  dsimp only [Gen.V, Gen.hostOps0]; after_results; rfl
theorem V_w5 (c : Dev nD) : (V m c main_v3 : S128x2048.Idx → EReal) = m ((c : Thread nD τ).loc main_arg5) := by
  dsimp only [Gen.V, Gen.hostOps0]; after_results; rfl
theorem V_w6 (c : Dev nD) : (V m c main_v4 : S2048x2048.Idx → EReal) = m ((c : Thread nD τ).loc main_arg6) := by
  dsimp only [Gen.V, Gen.hostOps0]; after_results; rfl
theorem V_w7 (c : Dev nD) : (V m c main_v9 : S1x2048.Idx → EReal) = shapeCast S1x2048 (m ((c : Thread nD τ).loc main_arg7)) shapeCasts_S2048_S1x2048 := by
  dsimp only [Gen.V, Gen.hostOps0]; after_results; rfl
theorem V_w8 (c : Dev nD) : (V m c main_v5 : S128x2048.Idx → EReal) = m ((c : Thread nD τ).loc main_arg8) := by
  dsimp only [Gen.V, Gen.hostOps0]; after_results; rfl
theorem V_w9 (c : Dev nD) : (V m c main_v6 : S2048x2048.Idx → EReal) = m ((c : Thread nD τ).loc main_arg9) := by
  dsimp only [Gen.V, Gen.hostOps0]; after_results; rfl
theorem V_w10 (c : Dev nD) : (V m c main_v10 : S1x2048.Idx → EReal) = shapeCast S1x2048 (m ((c : Thread nD τ).loc main_arg10)) shapeCasts_S2048_S1x2048 := by
  dsimp only [Gen.V, Gen.hostOps0]; after_results; rfl
theorem V_w11 (c : Dev nD) : (V m c main_v7 : S2048x1.Idx → EReal) = m ((c : Thread nD τ).loc main_arg11) := by
  dsimp only [Gen.V, Gen.hostOps0]; after_results; rfl
theorem V_w12 (c : Dev nD) : (V m c main_v11 : S1x1.Idx → EReal) = shapeCast S1x1 (m ((c : Thread nD τ).loc main_arg12)) shapeCasts_S1_S1x1 := by
  dsimp only [Gen.V, Gen.hostOps0]; after_results; rfl

/-! ## Where each window's block sits -/

theorem hz : (![0, 0] : Fin 2 → Nat) = fun _ => 0 := funext fun a => by fin_cases a <;> rfl

/-- The input, the state and the result move one block of rows per point; -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_13.index t (0 : Fin 2) = t.val ∧ win0_13.index t (1 : Fin 2) = 0 :=
  (by decide +kernel : ∀ t : Fin grid0.N, _)

/-- the weights and biases stay at block 0. -/
theorem idx_fixed : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The batch row that tile row p of point t is. -/
def row (t : Fin cfg0.N) (p : Fin 128) : Fin 32768 :=
  ⟨t.val * 128 + p.val, by have ht : t.val < 256 := N_0 ▸ t.isLt; have := p.isLt; omega⟩

/-! ## Each window's block, read -/

/-- A tile row of window 0 is a row of the batch. -/
theorem read0 (c : Dev nD) (t : Fin cfg0.N) (p : Fin 128) (k : Fin 128) :
    iblk m c 0 t (ix2 p k) = m ((c : Thread nD τ).loc main_arg0) (ix2 (row t p) k) := by
  obtain ⟨e0, e1, -⟩ := idx_rows t
  show (V m c main_v0 : S32768x128.Idx → EReal) (((cfg0.win 0).blk t).view.emb (ix2 p k)) = _
  rw [V_w0]
  refine congrArg _ (funext fun a => Fin.ext ?_)
  match a with
  | ⟨0, _⟩ => show win0_0.index t (0 : Fin 2) * 128 + 1 * p.val = t.val * 128 + p.val; rw [e0]; omega
  | ⟨1, _⟩ => show win0_0.index t (1 : Fin 2) * 128 + 1 * k.val = k.val; rw [e1]; omega

/-- A tile row of window 1 is a row of the batch. -/
theorem read1 (c : Dev nD) (t : Fin cfg0.N) (p : Fin 128) (k : Fin 2048) :
    iblk m c 1 t (ix2 p k) = m ((c : Thread nD τ).loc main_arg1) (ix2 (row t p) k) := by
  obtain ⟨-, -, e0, e1, -⟩ := idx_rows t
  show (V m c main_arg1 : S32768x2048.Idx → EReal) (((cfg0.win 1).blk t).view.emb (ix2 p k)) = _
  rw [V_main_arg1]
  refine congrArg _ (funext fun a => Fin.ext ?_)
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

/-- Window 2's block is its whole array. -/
theorem read2 (c : Dev nD) (t : Fin cfg0.N) (k : Fin 128) (j : Fin 2048) :
    iblk m c 2 t (ix2 k j) = m ((c : Thread nD τ).loc main_arg2) (ix2 k j) := by
  obtain ⟨e0, e1⟩ := (idx_fixed t).1
  show (V m c main_v1 : S128x2048.Idx → EReal) (((cfg0.win 2).blk t).view.emb (ix2 k j)) = _
  rw [V_w2]
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 2048 + 1 * j.val = j.val; rw [e1]; omega

/-- Window 3's block is its whole array. -/
theorem read3 (c : Dev nD) (t : Fin cfg0.N) (k : Fin 2048) (j : Fin 2048) :
    iblk m c 3 t (ix2 k j) = m ((c : Thread nD τ).loc main_arg3) (ix2 k j) := by
  obtain ⟨e0, e1⟩ := (idx_fixed t).2.1
  show (V m c main_v2 : S2048x2048.Idx → EReal) (((cfg0.win 3).blk t).view.emb (ix2 k j)) = _
  rw [V_w3]
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 2048 + 1 * j.val = j.val; rw [e1]; omega

/-- Window 4's block is the bias vector as one row. -/
theorem read4 (c : Dev nD) (t : Fin cfg0.N) (j : Fin 2048) :
    iblk m c 4 t (ix2 (0 : Fin 1) j) = m ((c : Thread nD τ).loc main_arg4) (ix1 j) := by
  obtain ⟨e0, e1⟩ := (idx_fixed t).2.2.1
  show (V m c main_v8 : S1x2048.Idx → EReal) (((cfg0.win 4).blk t).view.emb (ix2 (0 : Fin 1) j)) = _
  rw [V_w4]
  have he : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [e0]
    | ⟨1, _⟩ => show win0_4.index t (1 : Fin 2) * 2048 + 1 * j.val = j.val; rw [e1]; omega)
  rw [he]
  exact shapeCast_a_1a_apply _ _ (0 : Fin 1) j

/-- Window 5's block is its whole array. -/
theorem read5 (c : Dev nD) (t : Fin cfg0.N) (k : Fin 128) (j : Fin 2048) :
    iblk m c 5 t (ix2 k j) = m ((c : Thread nD τ).loc main_arg5) (ix2 k j) := by
  obtain ⟨e0, e1⟩ := (idx_fixed t).2.2.2.1
  show (V m c main_v3 : S128x2048.Idx → EReal) (((cfg0.win 5).blk t).view.emb (ix2 k j)) = _
  rw [V_w5]
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 2048 + 1 * j.val = j.val; rw [e1]; omega

/-- Window 6's block is its whole array. -/
theorem read6 (c : Dev nD) (t : Fin cfg0.N) (k : Fin 2048) (j : Fin 2048) :
    iblk m c 6 t (ix2 k j) = m ((c : Thread nD τ).loc main_arg6) (ix2 k j) := by
  obtain ⟨e0, e1⟩ := (idx_fixed t).2.2.2.2.1
  show (V m c main_v4 : S2048x2048.Idx → EReal) (((cfg0.win 6).blk t).view.emb (ix2 k j)) = _
  rw [V_w6]
  refine congrArg _ (funext fun a => Fin.ext ?_)
  match a with
  | ⟨0, _⟩ => show win0_6.index t (0 : Fin 2) * 2048 + 1 * k.val = k.val; rw [e0]; omega
  | ⟨1, _⟩ => show win0_6.index t (1 : Fin 2) * 2048 + 1 * j.val = j.val; rw [e1]; omega

/-- Window 7's block is the bias vector as one row. -/
theorem read7 (c : Dev nD) (t : Fin cfg0.N) (j : Fin 2048) :
    iblk m c 7 t (ix2 (0 : Fin 1) j) = m ((c : Thread nD τ).loc main_arg7) (ix1 j) := by
  obtain ⟨e0, e1⟩ := (idx_fixed t).2.2.2.2.2.1
  show (V m c main_v9 : S1x2048.Idx → EReal) (((cfg0.win 7).blk t).view.emb (ix2 (0 : Fin 1) j)) = _
  rw [V_w7]
  have he : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [e0]
    | ⟨1, _⟩ => show win0_7.index t (1 : Fin 2) * 2048 + 1 * j.val = j.val; rw [e1]; omega)
  rw [he]
  exact shapeCast_a_1a_apply _ _ (0 : Fin 1) j

/-- Window 8's block is its whole array. -/
theorem read8 (c : Dev nD) (t : Fin cfg0.N) (k : Fin 128) (j : Fin 2048) :
    iblk m c 8 t (ix2 k j) = m ((c : Thread nD τ).loc main_arg8) (ix2 k j) := by
  obtain ⟨e0, e1⟩ := (idx_fixed t).2.2.2.2.2.2.1
  show (V m c main_v5 : S128x2048.Idx → EReal) (((cfg0.win 8).blk t).view.emb (ix2 k j)) = _
  rw [V_w8]
  refine congrArg _ (funext fun a => Fin.ext ?_)
  match a with
  | ⟨0, _⟩ => show win0_8.index t (0 : Fin 2) * 128 + 1 * k.val = k.val; rw [e0]; omega
  | ⟨1, _⟩ => show win0_8.index t (1 : Fin 2) * 2048 + 1 * j.val = j.val; rw [e1]; omega

/-- Window 9's block is its whole array. -/
theorem read9 (c : Dev nD) (t : Fin cfg0.N) (k : Fin 2048) (j : Fin 2048) :
    iblk m c 9 t (ix2 k j) = m ((c : Thread nD τ).loc main_arg9) (ix2 k j) := by
  obtain ⟨e0, e1⟩ := (idx_fixed t).2.2.2.2.2.2.2.1
  show (V m c main_v6 : S2048x2048.Idx → EReal) (((cfg0.win 9).blk t).view.emb (ix2 k j)) = _
  rw [V_w9]
  refine congrArg _ (funext fun a => Fin.ext ?_)
  match a with
  | ⟨0, _⟩ => show win0_9.index t (0 : Fin 2) * 2048 + 1 * k.val = k.val; rw [e0]; omega
  | ⟨1, _⟩ => show win0_9.index t (1 : Fin 2) * 2048 + 1 * j.val = j.val; rw [e1]; omega

/-- Window 10's block is the bias vector as one row. -/
theorem read10 (c : Dev nD) (t : Fin cfg0.N) (j : Fin 2048) :
    iblk m c 10 t (ix2 (0 : Fin 1) j) = m ((c : Thread nD τ).loc main_arg10) (ix1 j) := by
  obtain ⟨e0, e1⟩ := (idx_fixed t).2.2.2.2.2.2.2.2.1
  show (V m c main_v10 : S1x2048.Idx → EReal) (((cfg0.win 10).blk t).view.emb (ix2 (0 : Fin 1) j)) = _
  rw [V_w10]
  have he : ((cfg0.win 10).blk t).view.emb (ix2 (0 : Fin 1) j) = ix2 (0 : Fin 1) j := funext fun a => Fin.ext (by
    match a with
    | ⟨0, _⟩ => show win0_10.index t (0 : Fin 2) * 1 + 1 * 0 = 0; rw [e0]
    | ⟨1, _⟩ => show win0_10.index t (1 : Fin 2) * 2048 + 1 * j.val = j.val; rw [e1]; omega)
  rw [he]
  exact shapeCast_a_1a_apply _ _ (0 : Fin 1) j

/-- Window 11's block is its whole array. -/
theorem read11 (c : Dev nD) (t : Fin cfg0.N) (k : Fin 2048) (j : Fin 1) :
    iblk m c 11 t (ix2 k j) = m ((c : Thread nD τ).loc main_arg11) (ix2 k j) := by
  obtain ⟨e0, e1⟩ := (idx_fixed t).2.2.2.2.2.2.2.2.2.1
  show (V m c main_v7 : S2048x1.Idx → EReal) (((cfg0.win 11).blk t).view.emb (ix2 k j)) = _
  rw [V_w11]
  refine congrArg _ (funext fun a => Fin.ext ?_)
  match a with
  | ⟨0, _⟩ => show win0_11.index t (0 : Fin 2) * 2048 + 1 * k.val = k.val; rw [e0]; omega
  | ⟨1, _⟩ => show win0_11.index t (1 : Fin 2) * 1 + 1 * j.val = j.val; rw [e1]; omega

/-- Window 12's block is the bias vector as one row. -/
theorem read12 (c : Dev nD) (t : Fin cfg0.N) (j : Fin 1) :
    iblk m c 12 t (ix2 (0 : Fin 1) j) = m ((c : Thread nD τ).loc main_arg12) (ix1 j) := by
  obtain ⟨e0, e1⟩ := (idx_fixed t).2.2.2.2.2.2.2.2.2.2
  show (V m c main_v11 : S1x1.Idx → EReal) (((cfg0.win 12).blk t).view.emb (ix2 (0 : Fin 1) j)) = _
  rw [V_w12]
  have he : ((cfg0.win 12).blk t).view.emb (ix2 (0 : Fin 1) j) = ix2 (0 : Fin 1) j := funext fun a => Fin.ext (by
    match a with
    | ⟨0, _⟩ => show win0_12.index t (0 : Fin 2) * 1 + 1 * 0 = 0; rw [e0]
    | ⟨1, _⟩ => show win0_12.index t (1 : Fin 2) * 1 + 1 * j.val = j.val; rw [e1]; omega)
  rw [he]
  exact shapeCast_a_1a_apply _ _ (0 : Fin 1) j

/-- Tile row p of point t's result block is row `row t p` of the result. -/
theorem emb13 (t : Fin cfg0.N) (p : Fin 128) :
    ((cfg0.win 13).blk t).view.emb (ix2 p (0 : Fin 1)) = (ix2 (row t p) (0 : Fin 1) : S32768x1.Idx) := by
  obtain ⟨-, -, -, -, e0, e1⟩ := idx_rows t
  refine funext fun a => Fin.ext ?_
  match a with
  | ⟨0, _⟩ => show win0_13.index t (0 : Fin 2) * 128 + 1 * p.val = t.val * 128 + p.val; rw [e0]; omega
  | ⟨1, _⟩ => show win0_13.index t (1 : Fin 2) * 1 + 1 * 0 = 0; rw [e1]

/-! ## What a point writes back, the cover, the array -/

/-- The batch of steps of the argument arrays. -/
abbrev out (c : Dev nD) : S32768x1.Idx → EReal :=
  batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What point t writes back is block t of the batch function. -/
theorem flushed_eq (c : Dev nD) (t : Fin cfg0.N) :
    (dats m 0 c).flushed 13 t = ((cfg0.win 13).blk t).view.read (Elt Ideal) (out m c) := by
  rw [Value.flushed13]
  unfold out0_13
  rw [View.canon_unit_zero hz]
  simp only [View.ld_unit_zero (S := S128x128) hz, View.ld_unit_zero (S := S128x2048) hz,
    View.ld_unit_zero (S := S2048x2048) hz, View.ld_unit_zero (S := S1x2048) hz, View.ld_unit_zero (S := S2048x1) hz,
    View.ld_unit_zero (S := S1x1) hz]
  funext j
  obtain ⟨p, q, rfl⟩ : ∃ (p : Fin 128) (q : Fin 1), j = ix2 p q := ⟨j 0, j 1, eq_ix2 j⟩
  obtain rfl : q = 0 := Subsingleton.elim _ _
  show k0_pay1 (iblk m c 1 t) (k0_pay4 (iblk m c 0 t) (iblk m c 1 t) (iblk m c 2 t) (iblk m c 3 t) (iblk m c 4 t))
      (k0_pay5 (iblk m c 0 t) (iblk m c 1 t) (iblk m c 5 t) (iblk m c 6 t) (iblk m c 7 t))
      (k0_pay6 (iblk m c 0 t) (iblk m c 8 t)) (iblk m c 9 t) (iblk m c 10 t) (iblk m c 11 t) (iblk m c 12 t)
      (ix2 p (0 : Fin 1))
    = out m c (((cfg0.win 13).blk t).view.emb (ix2 p (0 : Fin 1)))
  rw [emb13]
  refine (pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p).trans ?_
  simp only [read0 m c t, read1 m c t, read2 m c t, read3 m c t, read4 m c t, read5 m c t, read6 m c t, read7 m c t,
    read8 m c t, read9 m c t, read10 m c t, read11 m c t, read12 m c t]
  rfl

/-- An index of the result is in point t's block iff each coordinate is in the block's range on its axis. -/
theorem mem_blk (t : Fin cfg0.N) (i : S32768x1.Idx) :
    i ∈ ((cfg0.win 13).blk t).view.set ↔ ∀ a : Fin 2, win0_13.index t a * S128x1.size a ≤ (i a).val
      ∧ (i a).val < win0_13.index t a * S128x1.size a + S128x1.size a := by
  show i ∈ ((View.whole main_v12).slice (win0_13.rect t)).set ↔ _
  rw [View.set_slice_whole, Rect.mem_set_unit]
  exact Iff.rfl

/-- Row r of the result lies in the block of point r / 128: the 256 blocks of 128 rows tile the 32768 rows. -/
theorem cover (i : S32768x1.Idx) :
    ∃ t : Fin cfg0.N, (cfg0.win 13).flush t = true ∧ i ∈ ((cfg0.win 13).blk t).view.set := by
  have hi0 : (i 0).val < 32768 := (i 0).isLt
  have hi1 : (i 1).val < 1 := (i 1).isLt
  have hN : (i 0).val / 128 < cfg0.N := by rw [show cfg0.N = 256 from N_0]; omega
  obtain ⟨-, -, -, -, e0, e1⟩ := idx_rows ⟨(i 0).val / 128, hN⟩
  refine ⟨⟨(i 0).val / 128, hN⟩, flush0_13 _, ?_⟩
  rw [mem_blk]
  intro a
  match a with
  | ⟨0, _⟩ =>
    show win0_13.index ⟨(i 0).val / 128, hN⟩ (0 : Fin 2) * 128 ≤ (i 0).val
      ∧ (i 0).val < win0_13.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_13.index ⟨(i 0).val / 128, hN⟩ (1 : Fin 2) * 1 ≤ (i 1).val
      ∧ (i 1).val < win0_13.index ⟨(i 0).val / 128, hN⟩ (1 : Fin 2) * 1 + 1
    rw [e1]
    omega

/-- The result array after the run is the batch function of the arguments. -/
theorem final (c : Dev nD) : (dats m 0 c).arrAt 13 cfg0.N = out m c :=
  (dats m 0 c).arrAt_eq_of_cover 13 (out m c) (fun t _ => flushed_eq m c t) cover

/-- Every execution of the kernel's program ends with its result at the batch of steps of the argument arrays, the
    arguments unchanged. -/
theorem run : θ_run defs (onTc (τ := τ) (main (F := Ideal))) ⟨m, fun _ => 0, ρ⟩ fun r => ∀ c : Dev nD,
      r.2.mem ((c : Thread nD τ).loc main_v12) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.GruValue

end
-- ==== Proof.RefValue.lean ====
/-
  The host program's run, read as the batch of recurrent steps.

  The reference forms each gate's sum with whole-batch products, expands the logistic function as 1 / (1 + exp (-v)),
  and contracts the new state with the output column. Its result array is, entry by entry, the recurrent step of that
  path's rows.
-/
import proofs.«102342_j62551903699450_1_alg».proof.Proof.Gen.ReferenceIdeal.Run
import proofs.«102342_j62551903699450_1_alg».proof.Proof.GruStep

noncomputable section

namespace Cert.ReferenceIdeal.GruRef

open Cert.ReferenceIdeal Cert.ReferenceIdeal.Gen Idealize.ShloMosaic Idealize.ShloMosaic.TcCoe Idealize.SL.Sem Cert.GruStep

/-- Every execution of the reference ends with its result at the batch of steps of the argument arrays, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = batch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans
      (hTile_eq_batch dot_S32768x128_S128x2048_S32768x2048_1_0_0_1_n_n rfl
        dot_S32768x2048_S2048x2048_S32768x2048_1_0_0_1_n_n rfl dot_S32768x2048_S2048x1_S32768x1_1_0_0_1_n_n rfl
        _ _ _ _ _ _ _ _ _ _ _ _ _ Facts₀.bcast_S2048_S1x2048_1 Facts₀.bcast_S1x2048_S32768x2048_0_1
        Facts₀.bcast_S_S32768x2048 Facts₀.bcast_S1_S1x1_1 Facts₀.bcast_S1x1_S32768x1_0_1), (h c).2⟩)
    (Cert.ReferenceIdeal.Value.run (F := Ideal) m ρ)

end Cert.ReferenceIdeal.GruRef

end
-- ==== Proof.lean ====
/-
  A gated recurrent unit stepped once over 32768 paths: the tiled kernel against the whole-batch reference.

  Both programs compute, for every path, the same tree of operations on the extended reals: three gate sums (the
  path's input row and state row against the gate's two weight matrices, plus a bias), the logistic function on two of
  them and tanh on the third, the new state Z · h + (1 - Z) · T, and its product with the output column plus a bias
  (Proof/GruStep.lean). The kernel walks the batch 128 rows at a time with the weights whole, narrowing floats on the
  way into each product, which changes nothing on the extended reals, and uses the logistic operation where the
  reference expands 1 / (1 + exp (-v)) (Proof/KernelTile.lean, Proof/KernelValue.lean: the 256 written blocks tile
  the result). The reference's result is read in Proof/RefValue.lean. The two results are one function of arguments
  that agree, so no property of the inputs is used. The three frame claims are the generated frame runs and the
  reference's run with its result dropped; the idealization rewrote nothing, so that claim is trivial.
-/
import proofs.«102342_j62551903699450_1_alg».proof.Defs
import proofs.«102342_j62551903699450_1_alg».proof.Proof.Gen.Kernel
import proofs.«102342_j62551903699450_1_alg».proof.Proof.Gen.Kernel.Frame
import proofs.«102342_j62551903699450_1_alg».proof.Proof.Gen.KernelIdeal
import proofs.«102342_j62551903699450_1_alg».proof.Proof.Gen.KernelIdeal.Frame
import proofs.«102342_j62551903699450_1_alg».proof.Proof.Gen.ReferenceIdeal
import proofs.«102342_j62551903699450_1_alg».proof.Proof.Gen.Pre_finite_inputs
import proofs.«102342_j62551903699450_1_alg».proof.Proof.KernelValue
import proofs.«102342_j62551903699450_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.GruRef.run m ρ)

/-- Both runs end at the batch of recurrent steps of their argument arrays, and the argument arrays agree. -/
theorem algebraic : Cert.algebraic_KernelIdeal_ReferenceIdeal := by
  intro m ρ m' ρ' _ hagree
  refine ⟨fun c => Cert.KernelIdeal.GruValue.out m c, Cert.KernelIdeal.GruValue.run m ρ, ?_⟩
  refine (θ_run Cert.ReferenceIdeal.defs _ _).mono (fun _ h c => ⟨(h c).1.trans ?_, (h c).2⟩)
    (Cert.ReferenceIdeal.GruRef.run m' ρ')
  obtain ⟨a0, a1, a2, a3, a4, a5, a6, a7, a8, a9, a10, a11, a12⟩ := hagree c
  rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
